-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_0)) (v2 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_v0_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v29) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S256x1024 : Shape := ⟨2, ![256, 1024]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_

variable [Facts]

def fn_part1 {F : FTy → Type} [FloatOps F] (main_arg4 : FVec F S256x1024 .f32) (main_v13 : IVec S_ 1) (main_v16 : IVec S256x1024 1) : IVec S_ 1 :=
  let main_c_5 : IVec S_ 1 := constantI S_ 1 1#1
  let main_v17 : IVec S_ 1 := (fun x v => Host.reduce IntOp.andi x v reducesTo_S256x1024_S_d0_1 h_S_) main_v16 main_c_5
  let main_v18 : IVec S_ 1 := andi main_v13 main_v17
  let main_v19 : FVec F S256x1024 .f32 := Host.absf main_arg4
  let main_cst_6 : FVec F S_ .f32 := constant S_ .f32 0x7F800000#32
  let main_v20 : FVec F S256x1024 .f32 := broadcastInDim S256x1024 ![] bcast_S_S256x1024 main_cst_6
  let main_v21 : IVec S256x1024 1 := cmpf .olt main_v19 main_v20
  let main_c_7 : IVec S_ 1 := constantI S_ 1 1#1
  let main_v22 : IVec S_ 1 := (fun x v => Host.reduce IntOp.andi x v reducesTo_S256x1024_S_d0_1 h_S_) main_v21 main_c_7
  let main_v23 : IVec S_ 1 := andi main_v18 main_v22
  main_v23

def fn {F : FTy → Type} [FloatOps F] (main_arg0 : FVec F S65536x256 .f32) (main_arg1 : FVec F S65536x256 .f32) (main_arg2 : FVec F S65536x256 .f32) (main_arg3 : FVec F S256x1024 .f32) (main_arg4 : FVec F S256x1024 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S65536x256 .f32 := Host.absf main_arg1
  let main_cst_0 : FVec F S_ .f32 := constant S_ .f32 0x7F800000#32
  let main_v5 : FVec F S65536x256 .f32 := broadcastInDim S65536x256 ![] bcast_S_S65536x256 main_cst_0
  let main_v6 : IVec S65536x256 1 := cmpf .olt main_v4 main_v5
  let main_c_1 : IVec S_ 1 := constantI S_ 1 1#1
  let main_v7 : IVec S_ 1 := (fun x v => Host.reduce IntOp.andi x v reducesTo_S65536x256_S_d0_1 h_S_) main_v6 main_c_1
  let main_v8 : IVec S_ 1 := andi main_v3 main_v7
  let main_v9 : FVec F S65536x256 .f32 := Host.absf main_arg2
  let main_cst_2 : FVec F S_ .f32 := constant S_ .f32 0x7F800000#32
  let main_v10 : FVec F S65536x256 .f32 := broadcastInDim S65536x256 ![] bcast_S_S65536x256 main_cst_2
  let main_v11 : IVec S65536x256 1 := cmpf .olt main_v9 main_v10
  let main_c_3 : IVec S_ 1 := constantI S_ 1 1#1
  let main_v12 : IVec S_ 1 := (fun x v => Host.reduce IntOp.andi x v reducesTo_S65536x256_S_d0_1 h_S_) main_v11 main_c_3
  let main_v13 : IVec S_ 1 := andi main_v8 main_v12
  let main_v14 : FVec F S256x1024 .f32 := Host.absf main_arg3
  let main_cst_4 : FVec F S_ .f32 := constant S_ .f32 0x7F800000#32
  let main_v15 : FVec F S256x1024 .f32 := broadcastInDim S256x1024 ![] bcast_S_S256x1024 main_cst_4
  let main_v16 : IVec S256x1024 1 := cmpf .olt main_v14 main_v15
  fn_part1 (F := F) main_arg4 main_v13 main_v16
-- ==== Kernel.lean ====
abbrev S65536x256 : Shape := ⟨2, ![65536, 256]⟩
abbrev S256x1024 : Shape := ⟨2, ![256, 1024]⟩
abbrev S512x256 : Shape := ⟨2, ![512, 256]⟩
abbrev S512x1024 : Shape := ⟨2, ![512, 1024]⟩

abbrev nBuf : Space → Nat
  | .hbm => 7
  | .vmem => 12
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S65536x256, .f32⟩
  | .hbm, ⟨3, _⟩ => ⟨S256x1024, .f32⟩
  | .hbm, ⟨4, _⟩ => ⟨S256x1024, .f32⟩
  | .hbm, ⟨5, _⟩ => ⟨S65536x256, .f32⟩
  | .hbm, ⟨6, _⟩ => ⟨S65536x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S256x1024, .f32⟩
  | .local _ .vmem, ⟨7, _⟩ => ⟨S256x1024, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  inb_S256x1024_S256x1024_0_0 : ∀ a, (![0, 0] : Fin 2 → Nat) a + S256x1024.size a ≤ S256x1024.size a
  h_S256x1024 : 0 < S256x1024.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  slices_S512x1024_o0_0_S512x256 : S512x1024.Slices ![0, 0] S512x256
  slices_S512x1024_o0_256_S512x256 : S512x1024.Slices ![0, 256] S512x256
  slices_S512x1024_o0_512_S512x256 : S512x1024.Slices ![0, 512] S512x256
  slices_S512x1024_o0_768_S512x256 : S512x1024.Slices ![0, 768] S512x256
  dot_S512x256_S256x1024_S512x1024_1_0_0_1_n_n_wf : DotDims.WF S512x256 S256x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S65536x256.size a
  hwx0_0 : ∀ i : grid0.Coords, EltTy.bits .f32 = 32 ∨ (Rect.block (s := S65536x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S65536x256.size a
  hwx0_1 : ∀ i : grid0.Coords, EltTy.bits .f32 = 32 ∨ (Rect.block (s := S65536x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S65536x256.size a
  hwx0_2 : ∀ i : grid0.Coords, EltTy.bits .f32 = 32 ∨ (Rect.block (s := S65536x256) S512x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S256x1024.size a
  hwx0_3 : ∀ i : grid0.Coords, EltTy.bits .f32 = 32 ∨ (Rect.block (s := S256x1024) S256x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S256x1024.size a
  hwx0_4 : ∀ i : grid0.Coords, EltTy.bits .f32 = 32 ∨ (Rect.block (s := S256x1024) S256x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S65536x256.size a
  hwx0_5 : ∀ i : grid0.Coords, EltTy.bits .f32 = 32 ∨ (Rect.block (s := S65536x256) S512x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S65536x256.size a
  hwx0_6 : ∀ i : grid0.Coords, EltTy.bits .f32 = 32 ∨ (Rect.block (s := S65536x256) S512x256.size (cc0_transform_6 i) (hinb0_6 i)).WholeWords (EltTy.packing .f32)

variable [Facts₀]

def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S512x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S512x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S65536x256 : Shape := ⟨2, ![65536, 256]⟩
abbrev S256x1024 : Shape := ⟨2, ![256, 1024]⟩
abbrev S_ : Shape := ⟨0, ![]⟩
abbrev S65536x1024 : Shape := ⟨2, ![65536, 1024]⟩

abbrev nBuf : Space → Nat
  | .hbm => 113
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S65536x256, .f32⟩
  | .hbm, ⟨3, _⟩ => ⟨S256x1024, .f32⟩
  | .hbm, ⟨4, _⟩ => ⟨S256x1024, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S65536x256, .f32⟩
  | .hbm, ⟨9, _⟩ => ⟨S65536x256, .f32⟩
  | .hbm, ⟨10, _⟩ => ⟨S_, .f32⟩
  | .hbm, ⟨11, _⟩ => ⟨S65536x256, .f32⟩
  | .hbm, ⟨12, _⟩ => ⟨S65536x256, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S65536x256, .f32⟩
  | .hbm, ⟨17, _⟩ => ⟨S65536x256, .f32⟩
  | .hbm, ⟨18, _⟩ => ⟨S_, .f32⟩
  | .hbm, ⟨19, _⟩ => ⟨S65536x256, .f32⟩
  | .hbm, ⟨20, _⟩ => ⟨S65536x256, .f32⟩
  | .hbm, ⟨21, _⟩ => ⟨S_, .f32⟩
  | .hbm, ⟨22, _⟩ => ⟨S256x1024, .f32⟩
  | .hbm, ⟨23, _⟩ => ⟨S256x1024, .i1⟩
  | .hbm, ⟨24, _⟩ => ⟨S_, .f32⟩
  | .hbm, ⟨25, _⟩ => ⟨S_, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S65536x1024, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S65536x1024, .f32⟩
  | .hbm, ⟨35, _⟩ => ⟨S65536x1024, .f32⟩
  | .hbm, ⟨36, _⟩ => ⟨S_, .f32⟩
  | .hbm, ⟨37, _⟩ => ⟨S65536x1024, .f32⟩
  | .hbm, ⟨38, _⟩ => ⟨S65536x1024, .f32⟩
  | .hbm, ⟨39, _⟩ => ⟨S65536x256, .f32⟩
  | .hbm, ⟨40, _⟩ => ⟨S65536x256, .f32⟩
  | .hbm, ⟨41, _⟩ => ⟨S65536x256, .f32⟩
  | .hbm, ⟨42, _⟩ => ⟨S65536x256, .f32⟩
  | .hbm, ⟨43, _⟩ => ⟨S_, .f32⟩
  | .hbm, ⟨44, _⟩ => ⟨S256x1024, .f32⟩
  | .hbm, ⟨45, _⟩ => ⟨S256x1024, .i1⟩
  | .hbm, ⟨46, _⟩ => ⟨S_, .f32⟩
  | .hbm, ⟨47, _⟩ => ⟨S_, .f32⟩
  | .hbm, ⟨48, _⟩ => ⟨S256x1024, .f32⟩
  | .hbm, ⟨49, _⟩ => ⟨S256x1024, .f32⟩
  | .hbm, ⟨50, _⟩ => ⟨S256x1024, .f32⟩
  | .hbm, ⟨51, _⟩ => ⟨S256x1024, .f32⟩
  | .hbm, ⟨52, _⟩ => ⟨S65536x1024, .f32⟩
  | .hbm, ⟨53, _⟩ => ⟨S65536x256, .f32⟩
  | .hbm, ⟨54, _⟩ => ⟨S65536x256, .f32⟩
  | .hbm, ⟨55, _⟩ => ⟨S65536x256, .f32⟩
  | .hbm, ⟨56, _⟩ => ⟨S65536x256, .f32⟩
  | .hbm, ⟨57, _⟩ => ⟨S65536x256, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S65536x256, .f32⟩
  | .hbm, ⟨62, _⟩ => ⟨S65536x256, .f32⟩
  | .hbm, ⟨63, _⟩ => ⟨S_, .f32⟩
  | .hbm, ⟨64, _⟩ => ⟨S65536x256, .f32⟩
  | .hbm, ⟨65, _⟩ => ⟨S65536x256, .f32⟩
  | .hbm, ⟨66, _⟩ => ⟨S65536x256, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S65536x256, .f32⟩
  | .hbm, ⟨71, _⟩ => ⟨S65536x256, .f32⟩
  | .hbm, ⟨72, _⟩ => ⟨S_, .f32⟩
  | .hbm, ⟨73, _⟩ => ⟨S65536x256, .f32⟩
  | .hbm, ⟨74, _⟩ => ⟨S65536x256, .f32⟩
  | .hbm, ⟨75, _⟩ => ⟨S65536x256, .f32⟩
  | .hbm, ⟨76, _⟩ => ⟨S65536x256, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S65536x256, .f32⟩
  | .hbm, ⟨81, _⟩ => ⟨S65536x256, .f32⟩
  | .hbm, ⟨82, _⟩ => ⟨S_, .f32⟩
  | .hbm, ⟨83, _⟩ => ⟨S65536x256, .f32⟩
  | .hbm, ⟨84, _⟩ => ⟨S65536x256, .f32⟩
  | .hbm, ⟨85, _⟩ => ⟨S65536x256, .f32⟩
  | .hbm, ⟨86, _⟩ => ⟨S65536x256, .f32⟩
  | .hbm, ⟨87, _⟩ => ⟨S65536x256, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S65536x256, .f32⟩
  | .hbm, ⟨92, _⟩ => ⟨S65536x256, .f32⟩
  | .hbm, ⟨93, _⟩ => ⟨S_, .f32⟩
  | .hbm, ⟨94, _⟩ => ⟨S65536x256, .f32⟩
  | .hbm, ⟨95, _⟩ => ⟨S65536x256, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S65536x256, .f32⟩
  | .hbm, ⟨100, _⟩ => ⟨S65536x256, .f32⟩
  | .hbm, ⟨101, _⟩ => ⟨S_, .f32⟩
  | .hbm, ⟨102, _⟩ => ⟨S65536x256, .f32⟩
  | .hbm, ⟨103, _⟩ => ⟨S65536x256, .f32⟩
  | .hbm, ⟨104, _⟩ => ⟨S65536x256, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S65536x256, .f32⟩
  | .hbm, ⟨109, _⟩ => ⟨S65536x256, .f32⟩
  | .hbm, ⟨110, _⟩ => ⟨S_, .f32⟩
  | .hbm, ⟨111, _⟩ => ⟨S65536x256, .f32⟩
  | .hbm, ⟨112, _⟩ => ⟨S65536x256, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v0 : Ref sig .tc := ⟨.hbm, 12, rfl⟩
abbrev main_cst_1 : Ref sig .tc := ⟨.hbm, 13, rfl⟩
abbrev main_cst_2 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v1 : Ref sig .tc := ⟨.hbm, 20, rfl⟩
abbrev main_cst_3 : Ref sig .tc := ⟨.hbm, 21, rfl⟩
abbrev main_v2 : Ref sig .tc := ⟨.hbm, 22, rfl⟩
abbrev main_v3 : Ref sig .tc := ⟨.hbm, 23, rfl⟩
abbrev main_cst_4 : Ref sig .tc := ⟨.hbm, 24, rfl⟩
abbrev main_cst_5 : Ref sig .tc := ⟨.hbm, 25, rfl⟩
abbrev main_call2_v0 : Ref sig .tc := ⟨.hbm, 26, rfl⟩
abbrev main_call2_v1 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_cst_6 : Ref sig .tc := ⟨.hbm, 31, rfl⟩
abbrev main_cst_7 : Ref sig .tc := ⟨.hbm, 32, rfl⟩
abbrev main_call3_v0 : Ref sig .tc := ⟨.hbm, 33, rfl⟩
abbrev main_call3_v1 : Ref sig .tc := ⟨.hbm, 34, rfl⟩
abbrev main_call3_v2 : Ref sig .tc := ⟨.hbm, 35, rfl⟩
abbrev main_call3_v3 : Ref sig .tc := ⟨.hbm, 36, rfl⟩
abbrev main_call3_v4 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_cst_8 : Ref sig .tc := ⟨.hbm, 43, rfl⟩
abbrev main_v12 : Ref sig .tc := ⟨.hbm, 44, rfl⟩
abbrev main_v13 : Ref sig .tc := ⟨.hbm, 45, rfl⟩
abbrev main_cst_9 : Ref sig .tc := ⟨.hbm, 46, rfl⟩
abbrev main_cst_10 : Ref sig .tc := ⟨.hbm, 47, rfl⟩
abbrev main_call4_v0 : Ref sig .tc := ⟨.hbm, 48, rfl⟩
abbrev main_call4_v1 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_cst_11 : Ref sig .tc := ⟨.hbm, 58, rfl⟩
abbrev main_cst_12 : Ref sig .tc := ⟨.hbm, 59, rfl⟩
abbrev main_call5_v0 : Ref sig .tc := ⟨.hbm, 60, rfl⟩
abbrev main_call5_v1 : Ref sig .tc := ⟨.hbm, 61, rfl⟩
abbrev main_call5_v2 : Ref sig .tc := ⟨.hbm, 62, rfl⟩
abbrev main_call5_v3 : Ref sig .tc := ⟨.hbm, 63, rfl⟩
abbrev main_call5_v4 : Ref sig .tc := ⟨.hbm, 64, rfl⟩
abbrev main_v22 : Ref sig .tc := ⟨.hbm, 65, rfl⟩
abbrev main_v23 : Ref sig .tc := ⟨.hbm, 66, rfl⟩
abbrev main_cst_13 : Ref sig .tc := ⟨.hbm, 67, rfl⟩
abbrev main_cst_14 : Ref sig .tc := ⟨.hbm, 68, rfl⟩
abbrev main_call6_v0 : Ref sig .tc := ⟨.hbm, 69, rfl⟩
abbrev main_call6_v1 : Ref sig .tc := ⟨.hbm, 70, rfl⟩
abbrev main_call6_v2 : Ref sig .tc := ⟨.hbm, 71, rfl⟩
abbrev main_call6_v3 : Ref sig .tc := ⟨.hbm, 72, rfl⟩
abbrev main_call6_v4 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_cst_15 : Ref sig .tc := ⟨.hbm, 77, rfl⟩
abbrev main_cst_16 : Ref sig .tc := ⟨.hbm, 78, rfl⟩
abbrev main_call7_v0 : Ref sig .tc := ⟨.hbm, 79, rfl⟩
abbrev main_call7_v1 : Ref sig .tc := ⟨.hbm, 80, rfl⟩
abbrev main_call7_v2 : Ref sig .tc := ⟨.hbm, 81, rfl⟩
abbrev main_call7_v3 : Ref sig .tc := ⟨.hbm, 82, rfl⟩
abbrev main_call7_v4 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_cst_17 : Ref sig .tc := ⟨.hbm, 88, rfl⟩
abbrev main_cst_18 : Ref sig .tc := ⟨.hbm, 89, rfl⟩
abbrev main_call8_v0 : Ref sig .tc := ⟨.hbm, 90, rfl⟩
abbrev main_call8_v1 : Ref sig .tc := ⟨.hbm, 91, rfl⟩
abbrev main_call8_v2 : Ref sig .tc := ⟨.hbm, 92, rfl⟩
abbrev main_call8_v3 : Ref sig .tc := ⟨.hbm, 93, rfl⟩
abbrev main_call8_v4 : Ref sig .tc := ⟨.hbm, 94, rfl⟩
abbrev main_v31 : Ref sig .tc := ⟨.hbm, 95, rfl⟩
abbrev main_cst_19 : Ref sig .tc := ⟨.hbm, 96, rfl⟩
abbrev main_cst_20 : Ref sig .tc := ⟨.hbm, 97, rfl⟩
abbrev main_call9_v0 : Ref sig .tc := ⟨.hbm, 98, rfl⟩
abbrev main_call9_v1 : Ref sig .tc := ⟨.hbm, 99, rfl⟩
abbrev main_call9_v2 : Ref sig .tc := ⟨.hbm, 100, rfl⟩
abbrev main_call9_v3 : Ref sig .tc := ⟨.hbm, 101, rfl⟩
abbrev main_call9_v4 : Ref sig .tc := ⟨.hbm, 102, rfl⟩
abbrev main_v32 : Ref sig .tc := ⟨.hbm, 103, rfl⟩
abbrev main_v33 : Ref sig .tc := ⟨.hbm, 104, rfl⟩
abbrev main_cst_21 : Ref sig .tc := ⟨.hbm, 105, rfl⟩
abbrev main_cst_22 : Ref sig .tc := ⟨.hbm, 106, rfl⟩
abbrev main_call10_v0 : Ref sig .tc := ⟨.hbm, 107, rfl⟩
abbrev main_call10_v1 : Ref sig .tc := ⟨.hbm, 108, rfl⟩
abbrev main_call10_v2 : Ref sig .tc := ⟨.hbm, 109, rfl⟩
abbrev main_call10_v3 : Ref sig .tc := ⟨.hbm, 110, rfl⟩
abbrev main_call10_v4 : Ref sig .tc := ⟨.hbm, 111, rfl⟩
abbrev main_v34 : Ref sig .tc := ⟨.hbm, 112, rfl⟩

abbrev nD : Nat := 1
abbrev τ : Topo := Topo.v7x

variable {F : FTy → Type} [FloatOps F]

class Facts₀ : Prop where
  bcast_S_S65536x256 : S_.BroadcastsInDim S65536x256 (![] : Fin 0 → Fin S65536x256.rank)
  bcast_S_S256x1024 : S_.BroadcastsInDim S256x1024 (![] : Fin 0 → Fin S256x1024.rank)
  bcast_S_S65536x1024 : S_.BroadcastsInDim S65536x1024 (![] : Fin 0 → Fin S65536x1024.rank)
  slices_S65536x1024_S65536x256_0_0 : S65536x1024.Slices ![0, 0] S65536x256
  slices_S65536x1024_S65536x256_0_256 : S65536x1024.Slices ![0, 256] S65536x256
  slices_S65536x1024_S65536x256_0_512 : S65536x1024.Slices ![0, 512] S65536x256
  slices_S65536x1024_S65536x256_0_768 : S65536x1024.Slices ![0, 768] S65536x256
  dot_S65536x256_S256x1024_S65536x1024_1_0_0_1_n_n_wf : DotDims.WF S65536x256 S256x1024 S65536x1024 [1] [0] [0] [1] [] []

variable [Facts₀]

def dot_S65536x256_S256x1024_S65536x1024_1_0_0_1_n_n : DotDims S65536x256 S256x1024 S65536x1024 where
  lhsContracting := [1]
  rhsContracting := [0]
  lhsNonContracting := [0]
  rhsNonContracting := [1]
  lhsBatch := []
  rhsBatch := []
  wf := dot_S65536x256_S256x1024_S65536x1024_1_0_0_1_n_n_wf

class Facts : Prop extends Facts₀ where

variable [Facts]
-- ==== Proof.Cell.lean ====
/-
  One cell of the binarized recurrent layer, as a formula over the extended reals.

  Notation: for a batch row with input features `xr : Fin 256 → EReal`, previous hidden state `hr : Fin 256 → EReal`
  and previous cell value `cv` at unit `q`, and weight matrices `W R` of 256 rows and 1024 = 4 · 256 columns
  (four gate bands of 256 columns each):

    clip x      = min 1 (max (-1) x)                                   (the hard tanh)
    bin w       = 1 if w ≥ 0, else -1                                   (sign quantization)
    xgate c     = clip (Σ k, xr k · bin (W (k, c)))                     (input projection, clipped)
    rgate c     = Σ k, clip (hr k) · bin (R (k, c))                     (recurrent projection of the clipped state)
    pre a b     = clip (xgate a + rgate b)
    cellC q     = pre (q) (q + 256) · clip cv  +  pre (q + 256) (q) · pre (q + 512) (q + 512)
    cellH q     = clip (pre (q + 768) (q + 768) · clip (cellC q))

  The first two gates pair band 0 of the input projection with band 1 of the recurrent one and conversely; both
  programs do so. `newC` and `newH` are these cell formulas at every row and unit of the batch.
-/
import Idealize.ShloMosaic.PureOps.Ideal.Laws
import Idealize.ShloMosaic.Lib.ValueIdx

noncomputable section

open Idealize.ShloMosaic Idealize.ShloMosaic.ValueIdx
open scoped BigOperators

namespace Cert.BinLstm

/-- The hard tanh: clamp to the interval from -1 to 1, the lower bound applied first. -/
def clip (x : Ideal .f32) : Ideal .f32 :=
  FloatOps.minimumf (Scalar.ofBits .f32 0x3F800000#32) (FloatOps.maximumf (Scalar.ofBits .f32 0xBF800000#32) x)

/-- Sign quantization of a weight: 1 where it is at least zero, -1 elsewhere. -/
def bin (w : Ideal .f32) : Ideal .f32 :=
  Scalar.select (FloatOps.cmpf .oge w (Scalar.ofBits .f32 0x00000000#32)) (Scalar.ofBits .f32 0x3F800000#32) (Scalar.ofBits .f32 0xBF800000#32)

/-- A weight matrix: 256 rows, four gate bands of 256 columns. -/
abbrev Wt : Type := FVec Ideal ⟨2, ![256, 1024]⟩ .f32

/-- An activation array: 65536 batch rows of 256 units. -/
abbrev Act : Type := FVec Ideal ⟨2, ![65536, 256]⟩ .f32

/-- Column `q` of gate band 0, 1, 2, 3. -/
abbrev col0 (q : Fin 256) : Fin 1024 := ⟨q.val, by have := q.isLt; omega⟩
abbrev col1 (q : Fin 256) : Fin 1024 := ⟨q.val + 256, by have := q.isLt; omega⟩
abbrev col2 (q : Fin 256) : Fin 1024 := ⟨q.val + 512, by have := q.isLt; omega⟩
abbrev col3 (q : Fin 256) : Fin 1024 := ⟨q.val + 768, by have := q.isLt; omega⟩

/-- The clipped input projection of one batch row at column `c`. -/
def xgate (xr : Fin 256 → Ideal .f32) (W : Wt) (c : Fin 1024) : Ideal .f32 :=
  clip (∑ k : Fin 256, xr k * bin (W (ix2 k c)))

/-- The recurrent projection of one batch row's clipped state at column `c`. -/
def rgate (hr : Fin 256 → Ideal .f32) (R : Wt) (c : Fin 1024) : Ideal .f32 :=
  ∑ k : Fin 256, clip (hr k) * bin (R (ix2 k c))

/-- A gate's clipped pre-activation: input projection at column `a` plus recurrent projection at column `b`. -/
def pre (xr hr : Fin 256 → Ideal .f32) (W R : Wt) (a b : Fin 1024) : Ideal .f32 :=
  clip (FloatOps.addf (xgate xr W a) (rgate hr R b))

/-- The new cell value at unit `q`. -/
def cellC (xr hr : Fin 256 → Ideal .f32) (cv : Ideal .f32) (W R : Wt) (q : Fin 256) : Ideal .f32 :=
  FloatOps.addf (FloatOps.mulf (pre xr hr W R (col0 q) (col1 q)) (clip cv))
    (FloatOps.mulf (pre xr hr W R (col1 q) (col0 q)) (pre xr hr W R (col2 q) (col2 q)))

/-- The new hidden value at unit `q`. -/
def cellH (xr hr : Fin 256 → Ideal .f32) (cv : Ideal .f32) (W R : Wt) (q : Fin 256) : Ideal .f32 :=
  clip (FloatOps.mulf (pre xr hr W R (col3 q) (col3 q)) (clip (cellC xr hr cv W R q)))

/-- The new cell array: `cellC` of each batch row, at each unit. -/
def newC (X H C : Act) (W R : Wt) : Act :=
  fun i => cellC (fun k => X (ix2 (i 0) k)) (fun k => H (ix2 (i 0) k)) (C i) W R (i 1)

/-- The new hidden array: `cellH` of each batch row, at each unit. -/
def newH (X H C : Act) (W R : Wt) : Act :=
  fun i => cellH (fun k => X (ix2 (i 0) k)) (fun k => H (ix2 (i 0) k)) (C i) W R (i 1)

end Cert.BinLstm

end
-- ==== Proof.LibPlainMatmul.lean ====
/-
  A matrix product into a zero accumulator, read at an entry, over the extended reals.

  For the dimension numbers of a plain product, rows by contraction times contraction by columns
  (`DotDims.plain M K N`: the left operand contracted on its second axis, the right on its first, no batch
  axis), the entry `(r, c)` of `lhs · rhs + 0` is the sum over the contraction coordinate `k : Fin K` of
  `lhs (r, k) * rhs (k, c)`. Generic in the three extents and in the operands' float formats.
-/
import Idealize.ShloMosaic.PureOps.Ideal.Laws
import Idealize.ShloMosaic.Lib.ValueIdx

noncomputable section

open Idealize.ShloMosaic Idealize.ShloMosaic.ValueIdx
open scoped BigOperators

namespace Cert.PlainMatmul

variable {M K N : Nat}

/-- The left operand's row coordinate is the result's row coordinate. -/
theorem lhs_row (j : (⟨2, ![M, N]⟩ : Shape).Idx) (q : (DotDims.plain M K N).contr.Idx) :
    ((DotDims.plain M K N).lhsIdx j q 0).val = (j 0).val := rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the result's column coordinate. -/
theorem rhs_col (j : (⟨2, ![M, N]⟩ : Shape).Idx) (q : (DotDims.plain M K N).contr.Idx) :
    ((DotDims.plain M K N).rhsIdx j q 1).val = (j 1).val := rfl

/-- Entry `(r, c)` of a plain matrix product accumulated into zero is `∑ k, lhs (r, k) * rhs (k, c)`: the
    contraction index set has one axis of extent `K`, and the sum is re-indexed along it. -/
theorem matmul_zero_apply {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun a => Fin.ext (by
      match a with
      | ⟨0, _⟩ => exact (rhs_row _ _).trans hk
      | ⟨1, _⟩ => exact rhs_col _ _)
  rw [el, er]

end Cert.PlainMatmul

end
-- ==== Proof.KernelBlock.lean ====
/-
  What the kernel's body leaves in one block of each result, entry by entry.

  A block is 512 consecutive batch rows. At row `p` of the block and unit `q` the body's two stored values are
  the cell formulas `cellC` and `cellH` of that row's input features, previous hidden state and previous cell value,
  and of the two whole weight matrices:
    * the first matrix product, entry `(p, c)`, is the sum over `k` of the row's input at `k` times the sign of the
      weight at `(k, c)` (a product into a zero accumulator; the narrowing of its operands is the identity over the
      extended reals), and the body clips it: `xgate`;
    * the second, entry `(p, c)`, is the same sum with the row's clipped previous hidden state: `rgate`;
    * the four bands of 256 columns of either product are read at `q`, `q + 256`, `q + 512`, `q + 768`.
-/
import proofs.«164842_j44607530336603_1_alg».proof.Proof.Gen.KernelIdeal.Value
import proofs.«164842_j44607530336603_1_alg».proof.Proof.Cell
import proofs.«164842_j44607530336603_1_alg».proof.Proof.LibPlainMatmul

noncomputable section

namespace Cert.KernelIdeal.Block

open Cert.KernelIdeal Cert.KernelIdeal.Gen Cert.KernelIdeal.Value Cert.BinLstm
open Idealize.ShloMosaic Idealize.ShloMosaic.ValueIdx
open scoped BigOperators

/-- The product's dimension numbers are those of a plain rows-by-contraction times contraction-by-columns product. -/
theorem dot_plain : dot_S512x256_S256x1024_S512x1024_1_0_0_1_n_n = DotDims.plain 512 256 1024 := rfl

/-- Entry `(p, c)` of the clipped input projection of a block: the row's features against the sign of column `c`. -/
theorem xproj_at (W : Vec Ideal S256x1024 .f32) (x : Vec Ideal S512x256 .f32) (p : Fin 512) (c : Fin 1024) :
    k0_pay4 W x (ix2 p c) = xgate (fun k => x (ix2 p k)) W c := by
  unfold k0_pay4 xgate
  show clip (FloatOps.matmul (DotDims.plain 512 256 1024) none _ _ (constant ⟨2, ![512, 1024]⟩ .f32 0x00000000#32) (ix2 p c)) = _
  rw [Cert.PlainMatmul.matmul_zero_apply]
  rfl

/-- Entry `(p, c)` of the recurrent projection of a block: the row's clipped state against the sign of column `c`. -/
theorem rproj_at (R : Vec Ideal S256x1024 .f32) (h : Vec Ideal S512x256 .f32) (p : Fin 512) (c : Fin 1024) :
    k0_pay5 R h (ix2 p c) = rgate (fun k => h (ix2 p k)) R c := by
  unfold k0_pay5 rgate
  show FloatOps.matmul (DotDims.plain 512 256 1024) none _ _ (constant ⟨2, ![512, 1024]⟩ .f32 0x00000000#32) (ix2 p c) = _
  rw [Cert.PlainMatmul.matmul_zero_apply]
  rfl

/-- The same two facts at any index of the product, by its coordinates. -/
theorem xproj_idx (W : Vec Ideal S256x1024 .f32) (x : Vec Ideal S512x256 .f32) (j : S512x1024.Idx) :
    k0_pay4 W x j = xgate (fun k => x (ix2 (j 0) k)) W (j 1) :=
  (congrArg (k0_pay4 W x) (eq_ix2 j)).trans (xproj_at W x (j 0) (j 1))

theorem rproj_idx (R : Vec Ideal S256x1024 .f32) (h : Vec Ideal S512x256 .f32) (j : S512x1024.Idx) :
    k0_pay5 R h j = rgate (fun k => h (ix2 (j 0) k)) R (j 1) :=
  (congrArg (k0_pay5 R h) (eq_ix2 j)).trans (rproj_at R h (j 0) (j 1))

/-- The block of the new cell value the body stores, at row `y 0` and unit `y 1`: the cell formula of that row. -/
theorem cellC_at (W R : Vec Ideal S256x1024 .f32) (x h cv : Vec Ideal S512x256 .f32) (y : S512x256.Idx) :
    E6 W x R h cv y = cellC (fun k => x (ix2 (y 0) k)) (fun k => h (ix2 (y 0) k)) (cv y) W R (y 1) := by
  have hcv : cv (ix6_2 y) = cv y :=
    congrArg cv (funext fun a => by match a with | ⟨0, _⟩ => rfl | ⟨1, _⟩ => rfl)
  unfold cellC pre
  simp only [E6, xproj_idx, rproj_idx]
  rw [hcv]
  rfl

/-- The block of the new hidden value the body stores, at row `y 0` and unit `y 1`. -/
theorem cellH_at (W R : Vec Ideal S256x1024 .f32) (x h cv : Vec Ideal S512x256 .f32) (y : S512x256.Idx) :
    E5 W x R h cv y = cellH (fun k => x (ix2 (y 0) k)) (fun k => h (ix2 (y 0) k)) (cv y) W R (y 1) := by
  have hcv : cv (ix5_4 y) = cv y :=
    congrArg cv (funext fun a => by match a with | ⟨0, _⟩ => rfl | ⟨1, _⟩ => rfl)
  unfold cellH cellC pre
  simp only [E5, xproj_idx, rproj_idx]
  rw [hcv]
  rfl

theorem hz : (![0, 0] : Fin 2 → Nat) = fun _ => 0 := funext fun a => by fin_cases a <;> rfl

/-- What the body leaves in the block of the new cell value, from the five blocks it loads whole. -/
theorem outC_at (x0 x1 x2 : Vec Ideal S512x256 .f32) (x3 x4 : Vec Ideal S256x1024 .f32) (y : S512x256.Idx) :
    out0_6 x0 x1 x2 x3 x4 y = cellC (fun k => x0 (ix2 (y 0) k)) (fun k => x1 (ix2 (y 0) k)) (x2 y) x3 x4 (y 1) := by
  unfold out0_6
  simp only [View.ld_unit_zero (S := S512x256) hz, View.ld_unit_zero (S := S256x1024) hz]
  rw [canon6_eq, cellC_at]

/-- What the body leaves in the block of the new hidden value, from the five blocks it loads whole. -/
theorem outH_at (x0 x1 x2 : Vec Ideal S512x256 .f32) (x3 x4 : Vec Ideal S256x1024 .f32) (y : S512x256.Idx) :
    out0_5 x0 x1 x2 x3 x4 y = cellH (fun k => x0 (ix2 (y 0) k)) (fun k => x1 (ix2 (y 0) k)) (x2 y) x3 x4 (y 1) := by
  unfold out0_5
  simp only [View.ld_unit_zero (S := S512x256) hz, View.ld_unit_zero (S := S256x1024) hz]
  rw [canon5_eq, cellH_at]

/-- The cell formulas depend on their arguments only. -/
theorem cellC_congr {xr xr' hr hr' : Fin 256 → Ideal .f32} {cv cv' : Ideal .f32} {W W' R R' : Wt} {q q' : Fin 256}
    (h1 : xr = xr') (h2 : hr = hr') (h3 : cv = cv') (h4 : W = W') (h5 : R = R') (h6 : q = q') :
    cellC xr hr cv W R q = cellC xr' hr' cv' W' R' q' := by subst h1 h2 h3 h4 h5 h6; rfl

theorem cellH_congr {xr xr' hr hr' : Fin 256 → Ideal .f32} {cv cv' : Ideal .f32} {W W' R R' : Wt} {q q' : Fin 256}
    (h1 : xr = xr') (h2 : hr = hr') (h3 : cv = cv') (h4 : W = W') (h5 : R = R') (h6 : q = q') :
    cellH xr hr cv W R q = cellH xr' hr' cv' W' R' q' := by subst h1 h2 h3 h4 h5 h6; rfl

end Cert.KernelIdeal.Block

end
-- ==== Proof.Whole.lean ====
/-
  From blocks to the whole result arrays.

  The grid has 128 points; point `t` stages rows `512 t … 512 t + 511` of the three activation arrays (all 256
  columns), the two weight matrices whole, and writes back rows `512 t … 512 t + 511` of both results. So the input
  blocks at `t` are the arrays' rows shifted by `512 t`, what `t` writes back is block `t` of the cell formulas of the
  whole arrays, and row `r` is covered by point `r / 512`: both result arrays end as `newH` and `newC` of the arguments.
-/
import proofs.«164842_j44607530336603_1_alg».proof.Proof.KernelBlock

noncomputable section

namespace Cert.KernelIdeal.Whole

open Cert.KernelIdeal Cert.KernelIdeal.Gen Cert.KernelIdeal.Value Cert.KernelIdeal.Block Cert.BinLstm
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The index maps, decided over the grid: the activation windows and both results sit at block row `t`, block
    column 0; the weight windows at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The abbreviations: the five argument arrays as the region finds them. -/
abbrev aX (c : Dev nD) : Act := V m c main_arg0
abbrev aH (c : Dev nD) : Act := V m c main_arg1
abbrev aC (c : Dev nD) : Act := V m c main_arg2
abbrev aW (c : Dev nD) : Wt := V m c main_arg3
abbrev aR (c : Dev nD) : Wt := V m c main_arg4

/-- WHAT POINT `t` WRITES BACK to the cell result is block `t` of `newC` of the argument arrays. -/
theorem flushedC (c : Dev nD) (t : Fin cfg0.N) :
    (dats m 0 c).flushed 6 t = ((cfg0.win 6).blk t).view.read (Elt Ideal) (newC (aX m c) (aH m c) (aC m c) (aW m c) (aR m c)) := by
  rw [flushed6]
  obtain ⟨e00, e01, e10, e11, e20, e21, e30, e31, e40, e41, e50, e51, e60, e61⟩ := idx_facts t
  funext j
  show out0_6 (iblk m c 0 t) (iblk m c 1 t) (iblk m c 2 t) (iblk m c 3 t) (iblk m c 4 t) j
    = newC (aX m c) (aH m c) (aC m c) (aW m c) (aR m c) (((cfg0.win 6).blk t).view.emb j)
  refine (outC_at (iblk m c 0 t) (iblk m c 1 t) (iblk m c 2 t) (iblk m c 3 t) (iblk m c 4 t) j).trans ?_
  have hj0 : (j 0).val < 512 := (j 0).isLt
  have hj1 : (j 1).val < 256 := (j 1).isLt
  unfold newC
  refine cellC_congr ?_ ?_ ?_ ?_ ?_ ?_
  · funext k
    show V m c main_arg0 (((cfg0.win 0).blk t).view.emb (ix2 (j 0) k)) = V m c main_arg0 (ix2 ((((cfg0.win 6).blk t).view.emb j) 0) k)
    refine congrArg (V m c main_arg0) (funext fun a => Fin.ext ?_)
    match a with
    | ⟨0, _⟩ => show win0_0.index t (0 : Fin 2) * 512 + 1 * (j 0).val = win0_6.index t (0 : Fin 2) * 512 + 1 * (j 0).val; omega
    | ⟨1, _⟩ => show win0_0.index t (1 : Fin 2) * 256 + 1 * k.val = k.val; omega
  · funext k
    show V m c main_arg1 (((cfg0.win 1).blk t).view.emb (ix2 (j 0) k)) = V m c main_arg1 (ix2 ((((cfg0.win 6).blk t).view.emb j) 0) k)
    refine congrArg (V m c main_arg1) (funext fun a => Fin.ext ?_)
    match a with
    | ⟨0, _⟩ => show win0_1.index t (0 : Fin 2) * 512 + 1 * (j 0).val = win0_6.index t (0 : Fin 2) * 512 + 1 * (j 0).val; omega
    | ⟨1, _⟩ => show win0_1.index t (1 : Fin 2) * 256 + 1 * k.val = k.val; omega
  · show V m c main_arg2 (((cfg0.win 2).blk t).view.emb j) = V m c main_arg2 (((cfg0.win 6).blk t).view.emb j)
    refine congrArg (V m c main_arg2) (funext fun a => Fin.ext ?_)
    match a with
    | ⟨0, _⟩ => show win0_2.index t (0 : Fin 2) * 512 + 1 * (j 0).val = win0_6.index t (0 : Fin 2) * 512 + 1 * (j 0).val; omega
    | ⟨1, _⟩ => show win0_2.index t (1 : Fin 2) * 256 + 1 * (j 1).val = win0_6.index t (1 : Fin 2) * 256 + 1 * (j 1).val; omega
  · funext y
    show V m c main_arg3 (((cfg0.win 3).blk t).view.emb y) = V m c main_arg3 y
    refine congrArg (V m c main_arg3) (funext fun a => Fin.ext ?_)
    match a with
    | ⟨0, _⟩ => show win0_3.index t (0 : Fin 2) * 256 + 1 * (y 0).val = (y 0).val; omega
    | ⟨1, _⟩ => show win0_3.index t (1 : Fin 2) * 1024 + 1 * (y 1).val = (y 1).val; omega
  · funext y
    show V m c main_arg4 (((cfg0.win 4).blk t).view.emb y) = V m c main_arg4 y
    refine congrArg (V m c main_arg4) (funext fun a => Fin.ext ?_)
    match a with
    | ⟨0, _⟩ => show win0_4.index t (0 : Fin 2) * 256 + 1 * (y 0).val = (y 0).val; omega
    | ⟨1, _⟩ => show win0_4.index t (1 : Fin 2) * 1024 + 1 * (y 1).val = (y 1).val; omega
  · refine Fin.ext ?_
    show (j 1).val = win0_6.index t (1 : Fin 2) * 256 + 1 * (j 1).val
    omega

/-- WHAT POINT `t` WRITES BACK to the hidden result is block `t` of `newH` of the argument arrays. -/
theorem flushedH (c : Dev nD) (t : Fin cfg0.N) :
    (dats m 0 c).flushed 5 t = ((cfg0.win 5).blk t).view.read (Elt Ideal) (newH (aX m c) (aH m c) (aC m c) (aW m c) (aR m c)) := by
  rw [flushed5]
  obtain ⟨e00, e01, e10, e11, e20, e21, e30, e31, e40, e41, e50, e51, e60, e61⟩ := idx_facts t
  funext j
  show out0_5 (iblk m c 0 t) (iblk m c 1 t) (iblk m c 2 t) (iblk m c 3 t) (iblk m c 4 t) j
    = newH (aX m c) (aH m c) (aC m c) (aW m c) (aR m c) (((cfg0.win 5).blk t).view.emb j)
  refine (outH_at (iblk m c 0 t) (iblk m c 1 t) (iblk m c 2 t) (iblk m c 3 t) (iblk m c 4 t) j).trans ?_
  have hj0 : (j 0).val < 512 := (j 0).isLt
  have hj1 : (j 1).val < 256 := (j 1).isLt
  unfold newH
  refine cellH_congr ?_ ?_ ?_ ?_ ?_ ?_
  · funext k
    show V m c main_arg0 (((cfg0.win 0).blk t).view.emb (ix2 (j 0) k)) = V m c main_arg0 (ix2 ((((cfg0.win 5).blk t).view.emb j) 0) k)
    refine congrArg (V m c main_arg0) (funext fun a => Fin.ext ?_)
    match a with
    | ⟨0, _⟩ => show win0_0.index t (0 : Fin 2) * 512 + 1 * (j 0).val = win0_5.index t (0 : Fin 2) * 512 + 1 * (j 0).val; omega
    | ⟨1, _⟩ => show win0_0.index t (1 : Fin 2) * 256 + 1 * k.val = k.val; omega
  · funext k
    show V m c main_arg1 (((cfg0.win 1).blk t).view.emb (ix2 (j 0) k)) = V m c main_arg1 (ix2 ((((cfg0.win 5).blk t).view.emb j) 0) k)
    refine congrArg (V m c main_arg1) (funext fun a => Fin.ext ?_)
    match a with
    | ⟨0, _⟩ => show win0_1.index t (0 : Fin 2) * 512 + 1 * (j 0).val = win0_5.index t (0 : Fin 2) * 512 + 1 * (j 0).val; omega
    | ⟨1, _⟩ => show win0_1.index t (1 : Fin 2) * 256 + 1 * k.val = k.val; omega
  · show V m c main_arg2 (((cfg0.win 2).blk t).view.emb j) = V m c main_arg2 (((cfg0.win 5).blk t).view.emb j)
    refine congrArg (V m c main_arg2) (funext fun a => Fin.ext ?_)
    match a with
    | ⟨0, _⟩ => show win0_2.index t (0 : Fin 2) * 512 + 1 * (j 0).val = win0_5.index t (0 : Fin 2) * 512 + 1 * (j 0).val; omega
    | ⟨1, _⟩ => show win0_2.index t (1 : Fin 2) * 256 + 1 * (j 1).val = win0_5.index t (1 : Fin 2) * 256 + 1 * (j 1).val; omega
  · funext y
    show V m c main_arg3 (((cfg0.win 3).blk t).view.emb y) = V m c main_arg3 y
    refine congrArg (V m c main_arg3) (funext fun a => Fin.ext ?_)
    match a with
    | ⟨0, _⟩ => show win0_3.index t (0 : Fin 2) * 256 + 1 * (y 0).val = (y 0).val; omega
    | ⟨1, _⟩ => show win0_3.index t (1 : Fin 2) * 1024 + 1 * (y 1).val = (y 1).val; omega
  · funext y
    show V m c main_arg4 (((cfg0.win 4).blk t).view.emb y) = V m c main_arg4 y
    refine congrArg (V m c main_arg4) (funext fun a => Fin.ext ?_)
    match a with
    | ⟨0, _⟩ => show win0_4.index t (0 : Fin 2) * 256 + 1 * (y 0).val = (y 0).val; omega
    | ⟨1, _⟩ => show win0_4.index t (1 : Fin 2) * 1024 + 1 * (y 1).val = (y 1).val; omega
  · refine Fin.ext ?_
    show (j 1).val = win0_5.index t (1 : Fin 2) * 256 + 1 * (j 1).val
    omega

/-- An index of a result array is in point `t`'s block iff each coordinate is in the block's range on its axis. -/
theorem mem_blkH (t : Fin cfg0.N) (i : S65536x256.Idx) :
    i ∈ ((cfg0.win 5).blk t).view.set ↔ ∀ a : Fin 2, win0_5.index t a * S512x256.size a ≤ (i a).val ∧ (i a).val < win0_5.index t a * S512x256.size a + S512x256.size a := by
  show i ∈ ((View.whole main_v0_0).slice (win0_5.rect t)).set ↔ _
  rw [View.set_slice_whole, Rect.mem_set_unit]
  exact Iff.rfl

theorem mem_blkC (t : Fin cfg0.N) (i : S65536x256.Idx) :
    i ∈ ((cfg0.win 6).blk t).view.set ↔ ∀ a : Fin 2, win0_6.index t a * S512x256.size a ≤ (i a).val ∧ (i a).val < win0_6.index t a * S512x256.size a + S512x256.size a := by
  show i ∈ ((View.whole main_v0_1).slice (win0_6.rect t)).set ↔ _
  rw [View.set_slice_whole, Rect.mem_set_unit]
  exact Iff.rfl

/-- Row `r` of a result is written back by point `r / 512`: the 128 blocks of 512 rows tile the 65536 rows. -/
theorem coverH (i : S65536x256.Idx) : ∃ t : Fin cfg0.N, (cfg0.win 5).flush t = true ∧ i ∈ ((cfg0.win 5).blk t).view.set := by
  have hi0 : (i 0).val < 65536 := (i 0).isLt
  have hi1 : (i 1).val < 256 := (i 1).isLt
  refine ⟨⟨(i 0).val / 512, by show (i 0).val / 512 < 128; omega⟩, flush0_5 _, ?_⟩
  rw [mem_blkH]
  obtain ⟨e00, e01, e10, e11, e20, e21, e30, e31, e40, e41, e50, e51, e60, e61⟩ := idx_facts ⟨(i 0).val / 512, by show (i 0).val / 512 < 128; omega⟩
  have f0 : win0_5.index ⟨(i 0).val / 512, by show (i 0).val / 512 < 128; omega⟩ (0 : Fin 2) = (i 0).val / 512 := e50
  intro a
  match a with
  | ⟨0, _⟩ => show win0_5.index _ (0 : Fin 2) * 512 ≤ (i 0).val ∧ (i 0).val < win0_5.index _ (0 : Fin 2) * 512 + 512; omega
  | ⟨1, _⟩ => show win0_5.index _ (1 : Fin 2) * 256 ≤ (i 1).val ∧ (i 1).val < win0_5.index _ (1 : Fin 2) * 256 + 256; omega

theorem coverC (i : S65536x256.Idx) : ∃ t : Fin cfg0.N, (cfg0.win 6).flush t = true ∧ i ∈ ((cfg0.win 6).blk t).view.set := by
  have hi0 : (i 0).val < 65536 := (i 0).isLt
  have hi1 : (i 1).val < 256 := (i 1).isLt
  refine ⟨⟨(i 0).val / 512, by show (i 0).val / 512 < 128; omega⟩, flush0_6 _, ?_⟩
  rw [mem_blkC]
  obtain ⟨e00, e01, e10, e11, e20, e21, e30, e31, e40, e41, e50, e51, e60, e61⟩ := idx_facts ⟨(i 0).val / 512, by show (i 0).val / 512 < 128; omega⟩
  have f0 : win0_6.index ⟨(i 0).val / 512, by show (i 0).val / 512 < 128; omega⟩ (0 : Fin 2) = (i 0).val / 512 := e60
  intro a
  match a with
  | ⟨0, _⟩ => show win0_6.index _ (0 : Fin 2) * 512 ≤ (i 0).val ∧ (i 0).val < win0_6.index _ (0 : Fin 2) * 512 + 512; omega
  | ⟨1, _⟩ => show win0_6.index _ (1 : Fin 2) * 256 ≤ (i 1).val ∧ (i 1).val < win0_6.index _ (1 : Fin 2) * 256 + 256; omega

/-- THE RESULT ARRAYS after the run: the hidden and the cell formulas of the argument arrays. -/
theorem finalH (c : Dev nD) : (dats m 0 c).arrAt 5 cfg0.N
    = newH (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 5 (newH (aX m c) (aH m c) (aC m c) (aW m c) (aR m c)) (fun t _ => flushedH m c t) coverH

theorem finalC (c : Dev nD) : (dats m 0 c).arrAt 6 cfg0.N
    = newC (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 6 (newC (aX m c) (aH m c) (aC m c) (aW m c) (aR m c)) (fun t _ => flushedC m c t) coverC

/-- The kernel's run re-posted: each result array at its formula of the arguments, the arguments unchanged. -/
theorem run : θ_run defs (onTc (τ := τ) (main (F := Ideal))) ⟨m, fun _ => 0, ρ⟩ fun r => ∀ c : Dev nD,
      r.2.mem ((c : Thread nD τ).loc main_v0_0) = newH (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_1) = newC (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (finalH m c), (h c).2.1.trans (finalC m c), (h c).2.2⟩)
    (run_blocks m ρ)

end Cert.KernelIdeal.Whole

end
-- ==== Proof.Reference.lean ====
/-
  The reference, stage by stage, is the same cell formula at every row and unit.

  Its two matrix products are over the whole batch: entry `(r, c)` of the first is the sum over `k` of the input at
  `(r, k)` times the sign of the first weight matrix at `(k, c)`, then clipped; entry `(r, c)` of the second is the
  same sum with the clipped previous hidden state at `(r, k)` and the second weight matrix. Each is cut into four bands
  of 256 columns, read at `q`, `256 + q`, `512 + q`, `768 + q`; the remaining stages are pointwise. So the returned
  cell array is `newC` and the returned hidden array is `newH` of the five arguments.
-/
import proofs.«164842_j44607530336603_1_alg».proof.Proof.Gen.ReferenceIdeal.Read
import proofs.«164842_j44607530336603_1_alg».proof.Proof.Cell

noncomputable section

namespace Cert.ReferenceIdeal.RefValue

open Cert.ReferenceIdeal Cert.ReferenceIdeal.Read Cert.BinLstm
open Idealize.ShloMosaic Idealize.ShloMosaic.ValueIdx
open scoped BigOperators

variable (x0 x1 x2 : (⟨S65536x256, .f32⟩ : BufTy).Contents (Elt Ideal)) (x3 x4 : (⟨S256x1024, .f32⟩ : BufTy).Contents (Elt Ideal))

/-- The operand indices of the two products at result index `j` and contraction coordinate `k`: `(row of j, k)` on the
    left, `(k, column of j)` on the right. -/
theorem lidx6 (j : S65536x1024.Idx) (k : Fin 256) : lidx_main_v6 j k = ix2 (j 0) k :=
  funext fun a => by match a with | ⟨0, _⟩ => rfl | ⟨1, _⟩ => rfl
theorem ridx6 (j : S65536x1024.Idx) (k : Fin 256) : ridx_main_v6 j k = ix2 k (j 1) :=
  funext fun a => by match a with | ⟨0, _⟩ => rfl | ⟨1, _⟩ => rfl
theorem lidx16 (j : S65536x1024.Idx) (k : Fin 256) : lidx_main_v16 j k = ix2 (j 0) k :=
  funext fun a => by match a with | ⟨0, _⟩ => rfl | ⟨1, _⟩ => rfl
theorem ridx16 (j : S65536x1024.Idx) (k : Fin 256) : ridx_main_v16 j k = ix2 k (j 1) :=
  funext fun a => by match a with | ⟨0, _⟩ => rfl | ⟨1, _⟩ => rfl

/-- The clipped input projection at `(row of j, column of j)`. -/
theorem xall_at (j : S65536x1024.Idx) :
    val_main_v7 (F := Ideal) x0 x3 j = xgate (fun k => x0 (ix2 (j 0) k)) x3 (j 1) := by
  unfold xgate clip bin
  simp only [val_main_v34_apply, val_main_call10_v4_apply, val_main_call10_v3_apply, val_main_call10_v2_apply, val_main_call10_v1_apply, val_main_call10_v0_apply, val_main_cst_22_apply, val_main_cst_21_apply, val_main_v33_apply, val_main_v32_apply, val_main_call9_v4_apply, val_main_call9_v3_apply, val_main_call9_v2_apply, val_main_call9_v1_apply, val_main_call9_v0_apply, val_main_cst_20_apply, val_main_cst_19_apply, val_main_v31_apply, val_main_call8_v4_apply, val_main_call8_v3_apply, val_main_call8_v2_apply, val_main_call8_v1_apply, val_main_call8_v0_apply, val_main_cst_18_apply, val_main_cst_17_apply, val_main_v30_apply, val_main_v29_apply, val_main_v28_apply, val_main_v27_apply, val_main_call7_v4_apply, val_main_call7_v3_apply, val_main_call7_v2_apply, val_main_call7_v1_apply, val_main_call7_v0_apply, val_main_cst_16_apply, val_main_cst_15_apply, val_main_v26_apply, val_main_v25_apply, val_main_v24_apply, val_main_call6_v4_apply, val_main_call6_v3_apply, val_main_call6_v2_apply, val_main_call6_v1_apply, val_main_call6_v0_apply, val_main_cst_14_apply, val_main_cst_13_apply, val_main_v23_apply, val_main_v22_apply, val_main_call5_v4_apply, val_main_call5_v3_apply, val_main_call5_v2_apply, val_main_call5_v1_apply, val_main_call5_v0_apply, val_main_cst_12_apply, val_main_cst_11_apply, val_main_v21_apply, val_main_v20_apply, val_main_v19_apply, val_main_v18_apply, val_main_v17_apply, val_main_v16_apply, val_main_v15_apply, val_main_v14_apply, val_main_call4_v1_apply, val_main_call4_v0_apply, val_main_cst_10_apply, val_main_cst_9_apply, val_main_v13_apply, val_main_v12_apply, val_main_cst_8_apply, val_main_v11_apply, val_main_v10_apply, val_main_v9_apply, val_main_v8_apply, val_main_v7_apply, val_main_call3_v4_apply, val_main_call3_v3_apply, val_main_call3_v2_apply, val_main_call3_v1_apply, val_main_call3_v0_apply, val_main_cst_7_apply, val_main_cst_6_apply, val_main_v6_apply, val_main_v5_apply, val_main_v4_apply, val_main_call2_v1_apply, val_main_call2_v0_apply, val_main_cst_5_apply, val_main_cst_4_apply, val_main_v3_apply, val_main_v2_apply, val_main_cst_3_apply, val_main_v1_apply, val_main_call1_v4_apply, val_main_call1_v3_apply, val_main_call1_v2_apply, val_main_call1_v1_apply, val_main_call1_v0_apply, val_main_cst_2_apply, val_main_cst_1_apply, val_main_v0_apply, val_main_call0_v4_apply, val_main_call0_v3_apply, val_main_call0_v2_apply, val_main_call0_v1_apply, val_main_call0_v0_apply, val_main_cst_0_apply, val_main_cst_apply, lidx6, ridx6]
  rfl

/-- The recurrent projection of the clipped state at `(row of j, column of j)`. -/
theorem rall_at (j : S65536x1024.Idx) :
    val_main_v16 (F := Ideal) x1 x4 j = rgate (fun k => x1 (ix2 (j 0) k)) x4 (j 1) := by
  unfold rgate clip bin
  simp only [val_main_v34_apply, val_main_call10_v4_apply, val_main_call10_v3_apply, val_main_call10_v2_apply, val_main_call10_v1_apply, val_main_call10_v0_apply, val_main_cst_22_apply, val_main_cst_21_apply, val_main_v33_apply, val_main_v32_apply, val_main_call9_v4_apply, val_main_call9_v3_apply, val_main_call9_v2_apply, val_main_call9_v1_apply, val_main_call9_v0_apply, val_main_cst_20_apply, val_main_cst_19_apply, val_main_v31_apply, val_main_call8_v4_apply, val_main_call8_v3_apply, val_main_call8_v2_apply, val_main_call8_v1_apply, val_main_call8_v0_apply, val_main_cst_18_apply, val_main_cst_17_apply, val_main_v30_apply, val_main_v29_apply, val_main_v28_apply, val_main_v27_apply, val_main_call7_v4_apply, val_main_call7_v3_apply, val_main_call7_v2_apply, val_main_call7_v1_apply, val_main_call7_v0_apply, val_main_cst_16_apply, val_main_cst_15_apply, val_main_v26_apply, val_main_v25_apply, val_main_v24_apply, val_main_call6_v4_apply, val_main_call6_v3_apply, val_main_call6_v2_apply, val_main_call6_v1_apply, val_main_call6_v0_apply, val_main_cst_14_apply, val_main_cst_13_apply, val_main_v23_apply, val_main_v22_apply, val_main_call5_v4_apply, val_main_call5_v3_apply, val_main_call5_v2_apply, val_main_call5_v1_apply, val_main_call5_v0_apply, val_main_cst_12_apply, val_main_cst_11_apply, val_main_v21_apply, val_main_v20_apply, val_main_v19_apply, val_main_v18_apply, val_main_v17_apply, val_main_v16_apply, val_main_v15_apply, val_main_v14_apply, val_main_call4_v1_apply, val_main_call4_v0_apply, val_main_cst_10_apply, val_main_cst_9_apply, val_main_v13_apply, val_main_v12_apply, val_main_cst_8_apply, val_main_v11_apply, val_main_v10_apply, val_main_v9_apply, val_main_v8_apply, val_main_v7_apply, val_main_call3_v4_apply, val_main_call3_v3_apply, val_main_call3_v2_apply, val_main_call3_v1_apply, val_main_call3_v0_apply, val_main_cst_7_apply, val_main_cst_6_apply, val_main_v6_apply, val_main_v5_apply, val_main_v4_apply, val_main_call2_v1_apply, val_main_call2_v0_apply, val_main_cst_5_apply, val_main_cst_4_apply, val_main_v3_apply, val_main_v2_apply, val_main_cst_3_apply, val_main_v1_apply, val_main_call1_v4_apply, val_main_call1_v3_apply, val_main_call1_v2_apply, val_main_call1_v1_apply, val_main_call1_v0_apply, val_main_cst_2_apply, val_main_cst_1_apply, val_main_v0_apply, val_main_call0_v4_apply, val_main_call0_v3_apply, val_main_call0_v2_apply, val_main_call0_v1_apply, val_main_call0_v0_apply, val_main_cst_0_apply, val_main_cst_apply, lidx16, ridx16]
  rfl

/-- The returned cell array is the cell formula at every row and unit. -/
theorem cell_eq : val_main_v29 (F := Ideal) x0 x1 x2 x3 x4 = newC x0 x1 x2 x3 x4 := by
  funext i
  unfold newC cellC pre clip
  simp only [val_main_v34_apply, val_main_call10_v4_apply, val_main_call10_v3_apply, val_main_call10_v2_apply, val_main_call10_v1_apply, val_main_call10_v0_apply, val_main_cst_22_apply, val_main_cst_21_apply, val_main_v33_apply, val_main_v32_apply, val_main_call9_v4_apply, val_main_call9_v3_apply, val_main_call9_v2_apply, val_main_call9_v1_apply, val_main_call9_v0_apply, val_main_cst_20_apply, val_main_cst_19_apply, val_main_v31_apply, val_main_call8_v4_apply, val_main_call8_v3_apply, val_main_call8_v2_apply, val_main_call8_v1_apply, val_main_call8_v0_apply, val_main_cst_18_apply, val_main_cst_17_apply, val_main_v30_apply, val_main_v29_apply, val_main_v28_apply, val_main_v27_apply, val_main_call7_v4_apply, val_main_call7_v3_apply, val_main_call7_v2_apply, val_main_call7_v1_apply, val_main_call7_v0_apply, val_main_cst_16_apply, val_main_cst_15_apply, val_main_v26_apply, val_main_v25_apply, val_main_v24_apply, val_main_call6_v4_apply, val_main_call6_v3_apply, val_main_call6_v2_apply, val_main_call6_v1_apply, val_main_call6_v0_apply, val_main_cst_14_apply, val_main_cst_13_apply, val_main_v23_apply, val_main_v22_apply, val_main_call5_v4_apply, val_main_call5_v3_apply, val_main_call5_v2_apply, val_main_call5_v1_apply, val_main_call5_v0_apply, val_main_cst_12_apply, val_main_cst_11_apply, val_main_v21_apply, val_main_v20_apply, val_main_v19_apply, val_main_v18_apply, val_main_v17_apply, val_main_v15_apply, val_main_v14_apply, val_main_call4_v1_apply, val_main_call4_v0_apply, val_main_cst_10_apply, val_main_cst_9_apply, val_main_v13_apply, val_main_v12_apply, val_main_cst_8_apply, val_main_v11_apply, val_main_v10_apply, val_main_v9_apply, val_main_v8_apply, val_main_call3_v4_apply, val_main_call3_v3_apply, val_main_call3_v2_apply, val_main_call3_v1_apply, val_main_call3_v0_apply, val_main_cst_7_apply, val_main_cst_6_apply, val_main_v6_apply, val_main_v5_apply, val_main_v4_apply, val_main_call2_v1_apply, val_main_call2_v0_apply, val_main_cst_5_apply, val_main_cst_4_apply, val_main_v3_apply, val_main_v2_apply, val_main_cst_3_apply, val_main_v1_apply, val_main_call1_v4_apply, val_main_call1_v3_apply, val_main_call1_v2_apply, val_main_call1_v1_apply, val_main_call1_v0_apply, val_main_cst_2_apply, val_main_cst_1_apply, val_main_v0_apply, val_main_call0_v4_apply, val_main_call0_v3_apply, val_main_call0_v2_apply, val_main_call0_v1_apply, val_main_call0_v0_apply, val_main_cst_0_apply, val_main_cst_apply, xall_at, rall_at]
  have b9 : idx_main_v9 i 1 = col1 (i 1) := Fin.ext (Nat.add_comm _ _)
  have b10 : idx_main_v10 i 1 = col2 (i 1) := Fin.ext (Nat.add_comm _ _)
  have b18 : idx_main_v18 i 1 = col1 (i 1) := Fin.ext (Nat.add_comm _ _)
  have b19 : idx_main_v19 i 1 = col2 (i 1) := Fin.ext (Nat.add_comm _ _)
  rw [b9, b10, b18, b19]
  rfl

/-- The returned hidden array is the hidden formula at every row and unit. -/
theorem hidden_eq : val_main_v34 (F := Ideal) x0 x1 x2 x3 x4 = newH x0 x1 x2 x3 x4 := by
  funext i
  unfold newH cellH cellC pre clip
  simp only [val_main_v34_apply, val_main_call10_v4_apply, val_main_call10_v3_apply, val_main_call10_v2_apply, val_main_call10_v1_apply, val_main_call10_v0_apply, val_main_cst_22_apply, val_main_cst_21_apply, val_main_v33_apply, val_main_v32_apply, val_main_call9_v4_apply, val_main_call9_v3_apply, val_main_call9_v2_apply, val_main_call9_v1_apply, val_main_call9_v0_apply, val_main_cst_20_apply, val_main_cst_19_apply, val_main_v31_apply, val_main_call8_v4_apply, val_main_call8_v3_apply, val_main_call8_v2_apply, val_main_call8_v1_apply, val_main_call8_v0_apply, val_main_cst_18_apply, val_main_cst_17_apply, val_main_v30_apply, val_main_v29_apply, val_main_v28_apply, val_main_v27_apply, val_main_call7_v4_apply, val_main_call7_v3_apply, val_main_call7_v2_apply, val_main_call7_v1_apply, val_main_call7_v0_apply, val_main_cst_16_apply, val_main_cst_15_apply, val_main_v26_apply, val_main_v25_apply, val_main_v24_apply, val_main_call6_v4_apply, val_main_call6_v3_apply, val_main_call6_v2_apply, val_main_call6_v1_apply, val_main_call6_v0_apply, val_main_cst_14_apply, val_main_cst_13_apply, val_main_v23_apply, val_main_v22_apply, val_main_call5_v4_apply, val_main_call5_v3_apply, val_main_call5_v2_apply, val_main_call5_v1_apply, val_main_call5_v0_apply, val_main_cst_12_apply, val_main_cst_11_apply, val_main_v21_apply, val_main_v20_apply, val_main_v19_apply, val_main_v18_apply, val_main_v17_apply, val_main_v15_apply, val_main_v14_apply, val_main_call4_v1_apply, val_main_call4_v0_apply, val_main_cst_10_apply, val_main_cst_9_apply, val_main_v13_apply, val_main_v12_apply, val_main_cst_8_apply, val_main_v11_apply, val_main_v10_apply, val_main_v9_apply, val_main_v8_apply, val_main_call3_v4_apply, val_main_call3_v3_apply, val_main_call3_v2_apply, val_main_call3_v1_apply, val_main_call3_v0_apply, val_main_cst_7_apply, val_main_cst_6_apply, val_main_v6_apply, val_main_v5_apply, val_main_v4_apply, val_main_call2_v1_apply, val_main_call2_v0_apply, val_main_cst_5_apply, val_main_cst_4_apply, val_main_v3_apply, val_main_v2_apply, val_main_cst_3_apply, val_main_v1_apply, val_main_call1_v4_apply, val_main_call1_v3_apply, val_main_call1_v2_apply, val_main_call1_v1_apply, val_main_call1_v0_apply, val_main_cst_2_apply, val_main_cst_1_apply, val_main_v0_apply, val_main_call0_v4_apply, val_main_call0_v3_apply, val_main_call0_v2_apply, val_main_call0_v1_apply, val_main_call0_v0_apply, val_main_cst_0_apply, val_main_cst_apply, xall_at, rall_at]
  have b9 : idx_main_v9 i 1 = col1 (i 1) := Fin.ext (Nat.add_comm _ _)
  have b10 : idx_main_v10 i 1 = col2 (i 1) := Fin.ext (Nat.add_comm _ _)
  have b11 : idx_main_v11 i 1 = col3 (i 1) := Fin.ext (Nat.add_comm _ _)
  have b18 : idx_main_v18 i 1 = col1 (i 1) := Fin.ext (Nat.add_comm _ _)
  have b19 : idx_main_v19 i 1 = col2 (i 1) := Fin.ext (Nat.add_comm _ _)
  have b20 : idx_main_v20 i 1 = col3 (i 1) := Fin.ext (Nat.add_comm _ _)
  rw [b9, b10, b11, b18, b19, b20]
  rfl

end Cert.ReferenceIdeal.RefValue

end
-- ==== Proof.lean ====
/-
  A binarized recurrent cell over a batch of 65536 rows of 256 units, against its plain array formulation.

  Both programs compute, for every batch row and unit `q`,
      c' = clip (x_0 + r_1) · clip c + clip (x_1 + r_0) · clip (x_2 + r_2),      h' = clip (clip (x_3 + r_3) · clip c'),
  where `clip` clamps to [-1, 1], `x_b` is band `b` (columns `256 b + q`) of the clipped product of the row's input with
  the sign-quantized input weights, and `r_b` is band `b` of the product of the row's clipped previous hidden state with
  the sign-quantized recurrent weights (Cell.lean: `newC`, `newH`). They return h', h', c'.

  The kernel walks the batch in 128 blocks of 512 rows with both weight matrices resident, narrows the operands of
  its two products to a shorter float format (the identity over the extended reals) and accumulates each product into
  zero; the reference forms the two products over the whole batch. A matrix product into zero, entry by entry, is the
  plain sum over the contraction index on both sides, with the same summands: no algebraic law beyond that is used and
  the inputs' finiteness is never opened. KernelBlock.lean reads one block of the kernel's two stores as the cell
  formulas, Whole.lean assembles the 128 blocks into the result arrays, Reference.lean reads the reference's stages as
  the same formulas; here the two runs are set side by side.
-/
import proofs.«164842_j44607530336603_1_alg».proof.Defs
import proofs.«164842_j44607530336603_1_alg».proof.Proof.Gen.Kernel
import proofs.«164842_j44607530336603_1_alg».proof.Proof.Gen.Kernel.Skeleton
import proofs.«164842_j44607530336603_1_alg».proof.Proof.Gen.Kernel.Launch
import proofs.«164842_j44607530336603_1_alg».proof.Proof.Gen.Kernel.Points
import proofs.«164842_j44607530336603_1_alg».proof.Proof.Gen.Kernel.Frame
import proofs.«164842_j44607530336603_1_alg».proof.Proof.Gen.KernelIdeal
import proofs.«164842_j44607530336603_1_alg».proof.Proof.Gen.KernelIdeal.Skeleton
import proofs.«164842_j44607530336603_1_alg».proof.Proof.Gen.KernelIdeal.Launch
import proofs.«164842_j44607530336603_1_alg».proof.Proof.Gen.KernelIdeal.Points
import proofs.«164842_j44607530336603_1_alg».proof.Proof.Gen.KernelIdeal.Frame
import proofs.«164842_j44607530336603_1_alg».proof.Proof.Gen.ReferenceIdeal
import proofs.«164842_j44607530336603_1_alg».proof.Proof.Gen.Pre_finite_inputs
import proofs.«164842_j44607530336603_1_alg».proof.Proof.Gen.KernelIdeal.Value
import proofs.«164842_j44607530336603_1_alg».proof.Proof.Gen.ReferenceIdeal.Run
import proofs.«164842_j44607530336603_1_alg».proof.Proof.Gen.ReferenceIdeal.Read
import proofs.«164842_j44607530336603_1_alg».proof.Proof.Whole
import proofs.«164842_j44607530336603_1_alg».proof.Proof.Reference
import Idealize.ShloMosaic.Adequacy
import Idealize.ShloMosaic.Init

noncomputable section

namespace Cert.Proof

open Idealize.ShloMosaic Idealize.ShloMosaic.TcCoe Idealize.SL.Sem Cert.BinLstm

/-- Every weakly fair execution of the kernel terminates without a fault and leaves its arguments as they were. -/
theorem frame_k [Cert.Kernel.Facts] [Cert.Pre_finite_inputs.Facts] : Cert.frame_Kernel :=
  fun m ρ _ => Cert.Kernel.Gen.frame m ρ

/-- The same for the kernel read over the extended reals. -/
theorem frame_ki [Cert.KernelIdeal.Facts] [Cert.Pre_finite_inputs.Facts] : Cert.frame_KernelIdeal :=
  fun m ρ _ => Cert.KernelIdeal.Gen.frame m ρ

/-- The reference's run, its results forgotten: it terminates and keeps its arguments. -/
theorem frame_ri [Cert.ReferenceIdeal.Facts] [Cert.Pre_finite_inputs.Facts] : Cert.frame_ReferenceIdeal :=
  fun m ρ _ => (θ_run Cert.ReferenceIdeal.defs _ _).mono (fun _ h c => (h c).2.2.2)
    (Cert.ReferenceIdeal.Value.run (F := Ideal) m ρ)

/-- From memories that agree on the five arguments both programs end with the hidden array `newH`, twice, and the
    cell array `newC` of those arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => newH (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => newH (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => newC (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono (fun r h c => ⟨(h c).1, (h c).1, (h c).2.1, (h c).2.2⟩)
      (Cert.KernelIdeal.Whole.run m ρ)
  · refine (θ_run Cert.ReferenceIdeal.defs _ _).mono (fun r h c => ⟨?_, ?_, ?_, (h c).2.2.2⟩)
      (Cert.ReferenceIdeal.Value.run (F := Ideal) m' ρ')
    · rw [(h c).1, Cert.ReferenceIdeal.Read.val_main_v34_eq, Cert.ReferenceIdeal.RefValue.hidden_eq,
        (hagree c).1, (hagree c).2.1, (hagree c).2.2.1, (hagree c).2.2.2.1, (hagree c).2.2.2.2]
    · rw [(h c).2.1, Cert.ReferenceIdeal.Read.val_main_v34_eq, Cert.ReferenceIdeal.RefValue.hidden_eq,
        (hagree c).1, (hagree c).2.1, (hagree c).2.2.1, (hagree c).2.2.2.1, (hagree c).2.2.2.2]
    · rw [(h c).2.2.1, Cert.ReferenceIdeal.Read.val_main_v29_eq, Cert.ReferenceIdeal.RefValue.cell_eq,
        (hagree c).1, (hagree c).2.1, (hagree c).2.2.1, (hagree c).2.2.2.1, (hagree c).2.2.2.2]

/-- The five claims, under the programs' stated side conditions as the generated modules witness them; the
    idealization rewrote nothing, so the kernel over the extended reals is the printed kernel's own text. -/
theorem claim : Cert.Claim :=
  ⟨Cert.Kernel.Gen.facts, Cert.KernelIdeal.Gen.facts, Cert.ReferenceIdeal.Gen.facts, Cert.Pre_finite_inputs.Gen.facts,
    @frame_k _ _, @frame_ki _ _, @frame_ri _ _, trivial, @algebraic _ _ _⟩

end Cert.Proof

end
